-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x1 .f32) (main_arg7 : FVec F S1 .f32) (main_arg8 : FVec F S256x1 .f32) (main_arg9 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x1 .f32) (main_arg7 : FVec F S1 .f32) (main_arg8 : FVec F S256x1 .f32) (main_arg9 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x256 : Shape := ⟨2, ![1, 256]⟩
abbrev S2000x256 : Shape := ⟨2, ![2000, 256]⟩
abbrev S850000x256 : Shape := ⟨2, ![850000, 256]⟩
abbrev S256x2 : Shape := ⟨2, ![256, 2]⟩
abbrev S2 : Shape := ⟨1, ![2]⟩
abbrev S1x2 : Shape := ⟨2, ![1, 2]⟩
abbrev S50000x2 : Shape := ⟨2, ![50000, 2]⟩
abbrev S2000x2 : Shape := ⟨2, ![2000, 2]⟩
abbrev S50000x1 : Shape := ⟨2, ![50000, 1]⟩

abbrev nBuf : Space → Nat
  | .hbm => 102
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S256x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .f32⟩
  | .hbm, ⟨44, _⟩ => ⟨S256, .f32⟩
  | .hbm, ⟨45, _⟩ => ⟨S1x256, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S50000x256, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x256, .f32⟩
  | .hbm, ⟨82, _⟩ => ⟨S850000x1, .f32⟩
  | .hbm, ⟨83, _⟩ => ⟨S850000x256, .f32⟩
  | .hbm, ⟨84, _⟩ => ⟨S850000x256, .f32⟩
  | .hbm, ⟨85, _⟩ => ⟨S_, .f32⟩
  | .hbm, ⟨86, _⟩ => ⟨S50000x256, .f32⟩
  | .hbm, ⟨87, _⟩ => ⟨S850000x1, .i32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000x256, .f32⟩
  | .hbm, ⟨94, _⟩ => ⟨S50000x256, .f32⟩
  | .hbm, ⟨95, _⟩ => ⟨S256x2, .f32⟩
  | .hbm, ⟨96, _⟩ => ⟨S2, .f32⟩
  | .hbm, ⟨97, _⟩ => ⟨S1x2, .f32⟩
  | .hbm, ⟨98, _⟩ => ⟨S50000x2, .f32⟩
  | .hbm, ⟨99, _⟩ => ⟨S50000x1, .f32⟩
  | .hbm, ⟨100, _⟩ => ⟨S50000, .f32⟩
  | .hbm, ⟨101, _⟩ => ⟨S50000x1, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x2, .f32⟩
  | .local _ .vmem, ⟨15, _⟩ => ⟨S1x2, .f32⟩
  | .local _ .vmem, ⟨16, _⟩ => ⟨S2000x2, .f32⟩
  | .local _ .vmem, ⟨17, _⟩ => ⟨S2000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call1_cst : Ref sig .tc := ⟨.hbm, 92, rfl⟩
abbrev main_call1_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S256 : S_.BroadcastsInDim S256 (![] : Fin 0 → Fin S256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  concatenates_S256x1_S256x1_S256x2_d1 : Shape.Concatenates [S256x1, S256x1] S256x2 1
  concatenates_S1_S1_S2_d0 : Shape.Concatenates [S1, S1] S2 0
  shapeCasts_S2_S1x2 : S2.ShapeCasts S1x2
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  slices_S50000x2_S50000x1_0_0 : S50000x2.Slices ![0, 0] S50000x1
  shapeCasts_S50000x1_S50000 : S50000x1.ShapeCasts S50000
  slices_S50000x2_S50000x1_0_1 : S50000x2.Slices ![0, 1] S50000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2.size a ≤ S256x2.size a
  hwx2_1 : ∀ i : grid2.Coords, EltTy.bits .f32 = 32 ∨ (Rect.block (s := S256x2) S256x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S50000x2.size a
  hwx2_3 : ∀ i : grid2.Coords, EltTy.bits .f32 = 32 ∨ (Rect.block (s := S50000x2) S2000x2.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S256x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S2000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S256x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x256, .f32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x256, .f32⟩
  | .hbm, ⟨53, _⟩ => ⟨S850000x1, .f32⟩
  | .hbm, ⟨54, _⟩ => ⟨S850000x256, .f32⟩
  | .hbm, ⟨55, _⟩ => ⟨S850000x256, .f32⟩
  | .hbm, ⟨56, _⟩ => ⟨S_, .f32⟩
  | .hbm, ⟨57, _⟩ => ⟨S50000x256, .f32⟩
  | .hbm, ⟨58, _⟩ => ⟨S850000x1, .i32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S50000, .i32⟩
  | .hbm, ⟨68, _⟩ => ⟨S850000, .i32⟩
  | .hbm, ⟨69, _⟩ => ⟨S850000, .i32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S50000, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000x256, .f32⟩
  | .hbm, ⟨105, _⟩ => ⟨S850000x1, .f32⟩
  | .hbm, ⟨106, _⟩ => ⟨S850000x256, .f32⟩
  | .hbm, ⟨107, _⟩ => ⟨S850000x256, .f32⟩
  | .hbm, ⟨108, _⟩ => ⟨S_, .f32⟩
  | .hbm, ⟨109, _⟩ => ⟨S50000x256, .f32⟩
  | .hbm, ⟨110, _⟩ => ⟨S850000x1, .i32⟩
  | .hbm, ⟨111, _⟩ => ⟨S50000x256, .f32⟩
  | .hbm, ⟨112, _⟩ => ⟨S1x256, .f32⟩
  | .hbm, ⟨113, _⟩ => ⟨S50000x256, .f32⟩
  | .hbm, ⟨114, _⟩ => ⟨S50000x256, .f32⟩
  | .hbm, ⟨115, _⟩ => ⟨S_, .f32⟩
  | .hbm, ⟨116, _⟩ => ⟨S50000x256, .f32⟩
  | .hbm, ⟨117, _⟩ => ⟨S50000x256, .f32⟩
  | .hbm, ⟨118, _⟩ => ⟨S50000x1, .f32⟩
  | .hbm, ⟨119, _⟩ => ⟨S1x1, .f32⟩
  | .hbm, ⟨120, _⟩ => ⟨S50000x1, .f32⟩
  | .hbm, ⟨121, _⟩ => ⟨S50000x1, .f32⟩
  | .hbm, ⟨122, _⟩ => ⟨S50000, .f32⟩
  | .hbm, ⟨123, _⟩ => ⟨S50000x1, .f32⟩
  | .hbm, ⟨124, _⟩ => ⟨S1x1, .f32⟩
  | .hbm, ⟨125, _⟩ => ⟨S50000x1, .f32⟩
  | .hbm, ⟨126, _⟩ => ⟨S50000x1, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call1_cst : Ref sig .tc := ⟨.hbm, 115, rfl⟩
abbrev main_call1_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x1_S50000x1_1_0_0_1_n_n_wf : DotDims.WF S50000x256 S256x1 S50000x1 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Dense.lean ====
/-
  A dense layer over the extended reals, and the two spellings it meets.

  For X of M rows and K columns, W of K rows and N columns and a bias row B of N entries, the layer's entry (i, j) is

      (∑ q, X (i, q) · W (q, j)) + B (0, j).

  A kernel computes a block of it: the block's rows of X (rounded to a narrower float format, which changes nothing
  over the extended reals) times all of W, accumulated into an all-zero block, plus the bias row laid along every row
  of the block. Read at entry (p, q) of the block that is the sum over k of X (p, k) · W (k, q), plus B (0, q): the
  zero accumulator adds nothing, and the row laid along the block is read back at its column.

  When every entry of the bias row is zero the layer is the plain product of X and W, as the host computes it:
  x + 0 = x for every extended real x, the infinities included.
-/
import proofs.«105308_j80796924772854_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.Dense

open Idealize.ShloMosaic Idealize.ShloMosaic.ValueIdx

variable {M K N : Nat}

/-- The dense layer: entry (i, j) is the sum over q of X (i, q) · W (q, j), plus the bias row's entry j. -/
def dense (X : FVec Ideal ⟨2, ![M, K]⟩ .f32) (W : FVec Ideal ⟨2, ![K, N]⟩ .f32) (B : FVec Ideal ⟨2, ![1, N]⟩ .f32) :
    FVec Ideal ⟨2, ![M, N]⟩ .f32 :=
  fun i => (∑ q : Fin K, X (ix2 (i 0) q) * W (ix2 q (i 1))) + B (ix2 (0 : Fin 1) (i 1))

/-- The layer at entry (p, q), with the coordinates named. -/
theorem dense_at (X : FVec Ideal ⟨2, ![M, K]⟩ .f32) (W : FVec Ideal ⟨2, ![K, N]⟩ .f32) (B : FVec Ideal ⟨2, ![1, N]⟩ .f32)
    (p : Fin M) (q : Fin N) :
    dense X W B (ix2 p q) = (∑ k : Fin K, X (ix2 p k) * W (ix2 k q)) + B (ix2 (0 : Fin 1) q) := rfl

/-- A one-row array laid along every row of an M-row block, read at (p, q), is the row's entry q. -/
theorem row_along_at (B : FVec Ideal ⟨2, ![1, N]⟩ .f32) (hb : (⟨2, ![1, N]⟩ : Shape).Broadcasts ⟨2, ![M, N]⟩)
    (p : Fin M) (q : Fin N) :
    broadcastTo ⟨2, ![M, N]⟩ B hb (ix2 p q) = B (ix2 (0 : Fin 1) q) := by
  refine broadcastTo_apply B hb (ix2 p q) (ix2 (0 : Fin 1) q) ?_
  intro a
  match a with
  | ⟨0, _⟩ => rfl
  | ⟨1, _⟩ =>
    show q.val = if N = 1 then 0 else q.val
    split
    · have := q.isLt; omega
    · rfl

/-- What a kernel's body stores at entry (p, q) of its block: the rounded block of X times the rounded W into a zero
    accumulator, plus the bias row laid along the block, is the layer's entry. -/
theorem body_at (M K N : Nat) (X : FVec Ideal ⟨2, ![M, K]⟩ .f32) (W : FVec Ideal ⟨2, ![K, N]⟩ .f32)
    (B : FVec Ideal ⟨2, ![1, N]⟩ .f32) (h1 : FTy.bits .bf16 < FTy.bits .f32) (h2 : FTy.bits .bf16 < FTy.bits .f32)
    (hb : (⟨2, ![1, N]⟩ : Shape).Broadcasts ⟨2, ![M, N]⟩) (p : Fin M) (q : Fin N) :
    addf (matmul (DotDims.plain M K N) none (truncf .bf16 X h1) (truncf .bf16 W h2) (constant ⟨2, ![M, N]⟩ .f32 0x00000000#32))
        (broadcastTo ⟨2, ![M, N]⟩ B hb) (ix2 p q)
      = (∑ k : Fin K, X (ix2 p k) * W (ix2 k q)) + B (ix2 (0 : Fin 1) q) := by
  rw [addf_apply, row_along_at]
  refine congrArg (· + B (ix2 (0 : Fin 1) q)) ?_
  exact Cert.LibDotPlain.matmul_zero_plain M K N none (truncf .bf16 X h1) (truncf .bf16 W h2) p q

/-- With an all-zero bias row the layer is the host's product of X and W. -/
theorem dense_zero (X : FVec Ideal ⟨2, ![M, K]⟩ .f32) (W : FVec Ideal ⟨2, ![K, N]⟩ .f32) (B : FVec Ideal ⟨2, ![1, N]⟩ .f32)
    (hB : ∀ j, B j = 0) : dense X W B = Host.dotGeneral (DotDims.plain M K N) none X W := by
  funext i
  obtain ⟨p, q, rfl⟩ : ∃ (p : Fin M) (q : Fin N), i = ix2 p q := ⟨i 0, i 1, eq_ix2 i⟩
  rw [dense_at, hB, add_zero]
  simp only [Host.dotGeneral]
  exact (Cert.LibDotPlain.dotGeneral_plain M K N none _ X W p q).symm

/-- The all-zero row a program builds by reshaping a zero splat of N entries has every entry zero. -/
theorem zero_row {s₀ s₁ : Shape} (dims : Fin s₀.rank → Fin s₁.rank) (hd : s₀.BroadcastsInDim s₁ dims)
    (hc : s₁.ShapeCasts ⟨2, ![1, N]⟩) (j : (⟨2, ![1, N]⟩ : Shape).Idx) :
    (shapeCast ⟨2, ![1, N]⟩ (broadcastInDim s₁ dims hd (constant (F := Ideal) s₀ .f32 0x00000000#32)) hc) j = 0 := by
  unfold shapeCast broadcastInDim constant
  exact Ideal.ofBits_zero_f32

end Cert.Dense
-- ==== Proof.Region0.lean ====
/-
  Region 0: the first dense layer's kernel, run over its grid of 25 row blocks.
-/
import proofs.«105308_j80796924772854_1_alg».proof.Proof.Gen.KernelIdeal.Frame
import proofs.«105308_j80796924772854_1_alg».proof.Proof.Dense
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.Dense
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev X (c : Dev nD) : FVec Ideal ⟨2, ![50000, 256]⟩ .f32 := V c main_arg0
abbrev Wt (c : Dev nD) : FVec Ideal ⟨2, ![256, 256]⟩ .f32 := V c main_arg2
abbrev Bs (c : Dev nD) : FVec Ideal ⟨2, ![1, 256]⟩ .f32 := V c main_v28

theorem hz : (![0, 0] : Fin 2 → Nat) = fun _ => 0 := funext fun a => by fin_cases a <;> rfl

theorem pay_at (x0 : Vec Ideal S2000x256 .f32) (x1 : Vec Ideal S256x256 .f32) (x2 : Vec Ideal S1x256 .f32) (p : Fin 2000) (q : Fin 256) :
    k0_pay1 (F := Ideal) x0 x1 x2 (ix2 p q) = (∑ k : Fin 256, x0 (ix2 p k) * x1 (ix2 k q)) + x2 (ix2 (0 : Fin 1) q) := by
  unfold k0_pay1
  rw [shapeCast_self]
  exact Cert.Dense.body_at 2000 256 256 x0 x1 x2 _ _ _ p q

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed_eq (c : Dev nD) (t : Fin cfg0.N) :
    (dat0 V c).flushed 3 t = ((cfg0.win 3).blk t).view.read (Elt Ideal) (dense (X V c) (Wt V c) (Bs V c)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (ix2 p q)
      = dense (X V c) (Wt V c) (Bs V c) (((cfg0.win 3).blk t).view.emb (ix2 p q))
  refine (pay_at (iblk0 V c 0 t) (iblk0 V c 1 t) (iblk0 V c 2 t) p q).trans ?_
  obtain ⟨e00, e01, e10, e11, e20, e21, e30, e31⟩ := idx_facts t
  have ht : t.val < 25 := t.isLt
  have hp : p.val < 2000 := p.isLt
  have hr : t.val * 2000 + p.val < 50000 := by omega
  have hemb3 : ((cfg0.win 3).blk t).view.emb (ix2 p q) = ix2 (⟨t.val * 2000 + p.val, hr⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  rw [hemb3, dense_at]
  have h0 : ∀ k : Fin 256, iblk0 V c 0 t (ix2 p k) = X V c (ix2 (⟨t.val * 2000 + p.val, hr⟩ : Fin 50000) k) := fun k => by
    show V c main_arg0 (((cfg0.win 0).blk t).view.emb (ix2 p k)) = V c main_arg0 (ix2 (⟨t.val * 2000 + p.val, hr⟩ : Fin 50000) k)
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 256 + 1 * k.val = k.val; omega
  have h1 : ∀ k : Fin 256, iblk0 V c 1 t (ix2 k q) = Wt V c (ix2 k q) := fun k => by
    show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 256 + 1 * q.val = q.val; omega
  have h2 : iblk0 V c 2 t (ix2 (0 : Fin 1) q) = Bs V c (ix2 (0 : Fin 1) q) := by
    show V c main_v28 (((cfg0.win 2).blk t).view.emb (ix2 (0 : Fin 1) q)) = V c main_v28 (ix2 (0 : Fin 1) q)
    refine congrArg (V c main_v28) ?_
    funext a; apply Fin.ext
    match a with
    | ⟨0, _⟩ => show win0_2.index t (0 : Fin 2) * 1 + 1 * 0 = 0; omega
    | ⟨1, _⟩ => show win0_2.index t (1 : Fin 2) * 256 + 1 * q.val = q.val; omega
  rw [h2]
  refine congrArg (· + Bs V c (ix2 (0 : Fin 1) q)) (Finset.sum_congr rfl fun k _ => ?_)
  rw [h0 k, h1 k]

/-- An index of the array is in point t's block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v29).slice (win0_3.rect t)).set ↔ _
  rw [View.set_slice_whole, Rect.mem_set_unit]
  exact Iff.rfl

/-- Every row of the array lies in the block of the grid point "row / 2000", and every point writes its block back. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 2000, by show (i 0).val / 2000 < 25; omega⟩
  obtain ⟨e00, e01, e10, e11, e20, e21, e30, e31⟩ := idx_facts t
  have tv : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- Region 0's output array after the region: the dense layer of the three arrays it reads, as the region found them. -/
theorem final (c : Dev nD) : (dat0 V c).arrAt 3 cfg0.N = dense (X V c) (Wt V c) (Bs V c) :=
  (dat0 V c).arrAt_eq_of_cover 3 (dense (X V c) (Wt V c) (Bs V c)) (fun t _ => flushed_eq V c t) cover

end Cert.KernelIdeal.Region0
-- ==== Proof.Walk1.lean ====
/-
  The idealized kernel's two results as functions of the argument arrays.

  The program's buffers at each boundary are the launch memory carried through the host operations and, at each of
  the three kernel regions, through the dense layer that region computes. Read stage by stage, every buffer the
  kernel's program fills is the reference's own stage of the same argument arrays:

  * the graph-only buffers (the edge lists with self loops, the degree normalisation) are computed by the same host
    operations in both programs;
  * each kernel region leaves in its output array the dense layer of the arrays it reads, and its bias row is all
    zeros, so that array is the host's matrix product the reference computes at that place;
  * the gather, scale, scatter-add, bias and relu between the regions are again the same host operations;
  * the last region computes both heads as one dense layer with two output columns, and the program's two results
    are its two columns: the two one-column layers the reference computes.
-/
import proofs.«105308_j80796924772854_1_alg».proof.Proof.Gen.KernelIdeal.Frame
import proofs.«105308_j80796924772854_1_alg».proof.Proof.Gen.ReferenceIdeal.Read
import proofs.«105308_j80796924772854_1_alg».proof.Proof.Dense
import proofs.«105308_j80796924772854_1_alg».proof.Proof.Region0
import Idealize.ShloMosaic.Lib.StableHlo.Run

set_option maxRecDepth 16384

noncomputable section

namespace Cert.KernelIdeal.Walk

open Cert.KernelIdeal Cert.KernelIdeal.Gen Cert.ReferenceIdeal.Read Cert.Dense
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The ten argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)

/-! ## Before the first region -/

set_option maxHeartbeats 4000000 in
/-- The source list with self loops appended. -/
theorem w1_v5 : W1 m ρ c (Proc.devRef .tc main_v5) = val_main_v6 (F := Ideal) (a1 m c) := by
  show StableHlo.after hostOps0 (W0 m ρ c) (Proc.devRef .tc main_v5) = _
  simp only [hostOps0]
  after_results_simp
  rfl

set_option maxHeartbeats 4000000 in
/-- The target list with self loops appended. -/
theorem w1_v6 : W1 m ρ c (Proc.devRef .tc main_v6) = val_main_v7 (F := Ideal) (a1 m c) := by
  show StableHlo.after hostOps0 (W0 m ρ c) (Proc.devRef .tc main_v6) = _
  simp only [hostOps0]
  after_results_simp
  rfl

set_option maxHeartbeats 4000000 in
/-- The per-edge normalisation: the inverse square roots of the degrees at an edge's two ends, multiplied. -/
theorem w1_v26 : W1 m ρ c (Proc.devRef .tc main_v26) = val_main_v27 (F := Ideal) (a1 m c) := by
  show StableHlo.after hostOps0 (W0 m ρ c) (Proc.devRef .tc main_v26) = _
  simp only [hostOps0]
  after_results_simp
  rfl

set_option maxHeartbeats 4000000 in
/-- The first region's bias row is the reshaped zero splat. -/
theorem w1_v28 : W1 m ρ c (Proc.devRef .tc main_v28)
    = shapeCast S1x256 (broadcastInDim S256 ![] bcast_S_S256 (constant (F := Ideal) S_ .f32 0x00000000#32)) shapeCasts_S256_S1x256 := by
  show StableHlo.after hostOps0 (W0 m ρ c) (Proc.devRef .tc main_v28) = _
  simp only [hostOps0]
  after_results_simp
  rfl

set_option maxHeartbeats 4000000 in
theorem w1_arg (b : Ref sig .tc) (hb : b = main_arg0 ∨ b = main_arg2 ∨ b = main_arg3 ∨ b = main_arg4 ∨ b = main_arg5 ∨ b = main_arg6 ∨ b = main_arg7 ∨ b = main_arg8 ∨ b = main_arg9) :
    W1 m ρ c (Proc.devRef .tc b) = m ((c : Thread nD τ).loc b) := by
  show StableHlo.after hostOps0 (W0 m ρ c) (Proc.devRef .tc b) = _
  rcases hb with h | h | h | h | h | h | h | h | h <;> subst h <;> (simp only [hostOps0]; after_results_simp <;> rfl)

/-! ## The first region: the first dense layer, with an all-zero bias row -/

theorem w2_v5 : W2 m ρ c (Proc.devRef .tc main_v5) = val_main_v6 (F := Ideal) (a1 m c) :=
  (W2_of_ne m ρ c main_v5 (by decide)).trans (w1_v5 m ρ c)
theorem w2_v6 : W2 m ρ c (Proc.devRef .tc main_v6) = val_main_v7 (F := Ideal) (a1 m c) :=
  (W2_of_ne m ρ c main_v6 (by decide)).trans (w1_v6 m ρ c)
theorem w2_v26 : W2 m ρ c (Proc.devRef .tc main_v26) = val_main_v27 (F := Ideal) (a1 m c) :=
  (W2_of_ne m ρ c main_v26 (by decide)).trans (w1_v26 m ρ c)
theorem w2_arg3 : W2 m ρ c (Proc.devRef .tc main_arg3) = a3 m c :=
  (W2_of_ne m ρ c main_arg3 (by decide)).trans (w1_arg m ρ c main_arg3 (by simp))
theorem w2_arg4 : W2 m ρ c (Proc.devRef .tc main_arg4) = a4 m c :=
  (W2_of_ne m ρ c main_arg4 (by decide)).trans (w1_arg m ρ c main_arg4 (by simp))
theorem w2_arg5 : W2 m ρ c (Proc.devRef .tc main_arg5) = a5 m c :=
  (W2_of_ne m ρ c main_arg5 (by decide)).trans (w1_arg m ρ c main_arg5 (by simp))
theorem w2_arg6 : W2 m ρ c (Proc.devRef .tc main_arg6) = a6 m c :=
  (W2_of_ne m ρ c main_arg6 (by decide)).trans (w1_arg m ρ c main_arg6 (by simp))
theorem w2_arg7 : W2 m ρ c (Proc.devRef .tc main_arg7) = a7 m c :=
  (W2_of_ne m ρ c main_arg7 (by decide)).trans (w1_arg m ρ c main_arg7 (by simp))
theorem w2_arg8 : W2 m ρ c (Proc.devRef .tc main_arg8) = a8 m c :=
  (W2_of_ne m ρ c main_arg8 (by decide)).trans (w1_arg m ρ c main_arg8 (by simp))
theorem w2_arg9 : W2 m ρ c (Proc.devRef .tc main_arg9) = a9 m c :=
  (W2_of_ne m ρ c main_arg9 (by decide)).trans (w1_arg m ρ c main_arg9 (by simp))

/-- The first region's output array is the host's product of the node features and the first weight matrix. -/
theorem w2_v29 : W2 m ρ c (Proc.devRef .tc main_v29) = val_main_v4 (F := Ideal) (a0 m c) (a2 m c) := by
  refine (W2_arr m ρ c 3).trans ((Region0.final (V1 m ρ) c).trans ?_)
  show dense (W1 m ρ c (Proc.devRef .tc main_arg0)) (W1 m ρ c (Proc.devRef .tc main_arg2)) (W1 m ρ c (Proc.devRef .tc main_v28)) = _
  rw [w1_arg m ρ c main_arg0 (by simp), w1_arg m ρ c main_arg2 (by simp), w1_v28]
  refine (dense_zero _ _ _ (fun j => zero_row _ _ _ j)).trans ?_
  rfl

/-! ## Between the first and the second region: gather, scale, scatter-add, bias, relu -/

set_option maxHeartbeats 4000000 in
/-- A buffer none of the three stretches writes keeps its contents. -/
theorem w5_keep (b : Ref sig .tc) (hb : b = main_v5 ∨ b = main_v6 ∨ b = main_v26 ∨ b = main_arg4 ∨ b = main_arg5 ∨ b = main_arg6 ∨ b = main_arg7 ∨ b = main_arg8 ∨ b = main_arg9) :
    W5 m ρ c (Proc.devRef .tc b) = W2 m ρ c (Proc.devRef .tc b) := by
  show StableHlo.after hostOps1_2 (StableHlo.after hostOps1_1 (StableHlo.after hostOps1 (W2 m ρ c))) (Proc.devRef .tc b) = _
  rcases hb with h | h | h | h | h | h | h | h | h <;> subst h <;> (simp only [hostOps1_2, hostOps1_1, hostOps1]; after_results_simp <;> rfl)

set_option maxHeartbeats 4000000 in
/-- The first layer before the rectifier: the products' rows gathered at the sources, scaled, scatter-added at the
    targets, plus the bias. -/
theorem w3_v45 : W3 m ρ c (Proc.devRef .tc main_v45) = val_main_v43 (F := Ideal) (a0 m c) (a1 m c) (a2 m c) (a3 m c) := by
  show StableHlo.after hostOps1 (W2 m ρ c) (Proc.devRef .tc main_v45) = _
  simp only [hostOps1]
  after_results_simp
  rw [w2_v29, w2_v5, w2_v6, w2_v26, w2_arg3]
  rfl

set_option maxHeartbeats 4000000 in
/-- The second region's bias row is the reshaped zero splat. -/
theorem w5_v48 : W5 m ρ c (Proc.devRef .tc main_v48)
    = shapeCast S1x256 (broadcastInDim S256 ![] bcast_S_S256 (constant (F := Ideal) S_ .f32 0x00000000#32)) shapeCasts_S256_S1x256 := by
  show StableHlo.after hostOps1_2 (StableHlo.after hostOps1_1 (StableHlo.after hostOps1 (W2 m ρ c))) (Proc.devRef .tc main_v48) = _
  simp only [hostOps1_2, hostOps1_1, hostOps1]
  after_results_simp <;> rfl

end Cert.KernelIdeal.Walk
-- ==== Proof.Region1.lean ====
/-
  Region 1: the second dense layer's kernel, run over its grid of 25 row blocks.
-/
import proofs.«105308_j80796924772854_1_alg».proof.Proof.Gen.KernelIdeal.Frame
import proofs.«105308_j80796924772854_1_alg».proof.Proof.Dense
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.Dense
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev X (c : Dev nD) : FVec Ideal ⟨2, ![50000, 256]⟩ .f32 := V c main_v46
abbrev Wt (c : Dev nD) : FVec Ideal ⟨2, ![256, 256]⟩ .f32 := V c main_arg4
abbrev Bs (c : Dev nD) : FVec Ideal ⟨2, ![1, 256]⟩ .f32 := V c main_v48

theorem hz : (![0, 0] : Fin 2 → Nat) = fun _ => 0 := funext fun a => by fin_cases a <;> rfl

theorem pay_at (x0 : Vec Ideal S2000x256 .f32) (x1 : Vec Ideal S256x256 .f32) (x2 : Vec Ideal S1x256 .f32) (p : Fin 2000) (q : Fin 256) :
    k1_pay1 (F := Ideal) x0 x1 x2 (ix2 p q) = (∑ k : Fin 256, x0 (ix2 p k) * x1 (ix2 k q)) + x2 (ix2 (0 : Fin 1) q) := by
  unfold k1_pay1
  rw [shapeCast_self, shapeCast_self]
  exact Cert.Dense.body_at 2000 256 256 x0 x1 x2 _ _ _ p q

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed_eq (c : Dev nD) (t : Fin cfg1.N) :
    (dat1 V c).flushed 3 t = ((cfg1.win 3).blk t).view.read (Elt Ideal) (dense (X V c) (Wt V c) (Bs V c)) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (ix2 p q)
      = dense (X V c) (Wt V c) (Bs V c) (((cfg1.win 3).blk t).view.emb (ix2 p q))
  refine (pay_at (iblk1 V c 0 t) (iblk1 V c 1 t) (iblk1 V c 2 t) p q).trans ?_
  obtain ⟨e00, e01, e10, e11, e20, e21, e30, e31⟩ := idx_facts t
  have ht : t.val < 25 := t.isLt
  have hp : p.val < 2000 := p.isLt
  have hr : t.val * 2000 + p.val < 50000 := by omega
  have hemb3 : ((cfg1.win 3).blk t).view.emb (ix2 p q) = ix2 (⟨t.val * 2000 + p.val, hr⟩ : Fin 50000) q := by
    funext a; apply Fin.ext
    match a with
    | ⟨0, _⟩ => show win1_3.index t (0 : Fin 2) * 2000 + 1 * p.val = t.val * 2000 + p.val; omega
    | ⟨1, _⟩ => show win1_3.index t (1 : Fin 2) * 256 + 1 * q.val = q.val; omega
  rw [hemb3, dense_at]
  have h0 : ∀ k : Fin 256, iblk1 V c 0 t (ix2 p k) = X V c (ix2 (⟨t.val * 2000 + p.val, hr⟩ : Fin 50000) k) := fun k => by
    show V c main_v46 (((cfg1.win 0).blk t).view.emb (ix2 p k)) = V c main_v46 (ix2 (⟨t.val * 2000 + p.val, hr⟩ : Fin 50000) k)
    refine congrArg (V c main_v46) ?_
    funext a; apply Fin.ext
    match a with
    | ⟨0, _⟩ => show win1_0.index t (0 : Fin 2) * 2000 + 1 * p.val = t.val * 2000 + p.val; omega
    | ⟨1, _⟩ => show win1_0.index t (1 : Fin 2) * 256 + 1 * k.val = k.val; omega
  have h1 : ∀ k : Fin 256, iblk1 V c 1 t (ix2 k q) = Wt V c (ix2 k q) := fun k => by
    show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 256 + 1 * k.val = k.val; omega
    | ⟨1, _⟩ => show win1_1.index t (1 : Fin 2) * 256 + 1 * q.val = q.val; omega
  have h2 : iblk1 V c 2 t (ix2 (0 : Fin 1) q) = Bs V c (ix2 (0 : Fin 1) q) := by
    show V c main_v48 (((cfg1.win 2).blk t).view.emb (ix2 (0 : Fin 1) q)) = V c main_v48 (ix2 (0 : Fin 1) q)
    refine congrArg (V c main_v48) ?_
    funext a; apply Fin.ext
    match a with
    | ⟨0, _⟩ => show win1_2.index t (0 : Fin 2) * 1 + 1 * 0 = 0; omega
    | ⟨1, _⟩ => show win1_2.index t (1 : Fin 2) * 256 + 1 * q.val = q.val; omega
  rw [h2]
  refine congrArg (· + Bs V c (ix2 (0 : Fin 1) q)) (Finset.sum_congr rfl fun k _ => ?_)
  rw [h0 k, h1 k]

/-- An index of the array is in point t's block iff each coordinate is in the block's range on its axis. -/
theorem mem_blk (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v49).slice (win1_3.rect t)).set ↔ _
  rw [View.set_slice_whole, Rect.mem_set_unit]
  exact Iff.rfl

/-- Every row of the array lies in the block of the grid point "row / 2000", and every point writes its block back. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  let t : Fin cfg1.N := ⟨(i 0).val / 2000, by show (i 0).val / 2000 < 25; omega⟩
  obtain ⟨e00, e01, e10, e11, e20, e21, e30, e31⟩ := idx_facts t
  have tv : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- Region 1's output array after the region: the dense layer of the three arrays it reads, as the region found them. -/
theorem final (c : Dev nD) : (dat1 V c).arrAt 3 cfg1.N = dense (X V c) (Wt V c) (Bs V c) :=
  (dat1 V c).arrAt_eq_of_cover 3 (dense (X V c) (Wt V c) (Bs V c)) (fun t _ => flushed_eq V c t) cover

end Cert.KernelIdeal.Region1
-- ==== Proof.Walk2.lean ====
/-
  The idealized kernel's buffers after the first rectifier and through the second region.
-/
import proofs.«105308_j80796924772854_1_alg».proof.Proof.Walk1
import proofs.«105308_j80796924772854_1_alg».proof.Proof.Region1

set_option maxRecDepth 16384

noncomputable section

namespace Cert.KernelIdeal.Walk

open Cert.KernelIdeal Cert.KernelIdeal.Gen Cert.ReferenceIdeal.Read Cert.Dense
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Contents carried to and from a buffer of the rectifier's own: the identity -/

theorem of_v45 (v : (⟨S50000x256, .f32⟩ : BufTy).Contents (Elt Ideal)) :
    (TRef.of (sig := sig) (T := ⟨S50000x256, .f32⟩) main_v45).ofBuf v = v := rfl
theorem to_v46 (v : (⟨S50000x256, .f32⟩ : BufTy).Contents (Elt Ideal)) :
    (TRef.of (sig := sig) (T := ⟨S50000x256, .f32⟩) main_v46).toBuf v = v := rfl
theorem ofto_c0v0 (v : (⟨S50000x256, .f32⟩ : BufTy).Contents (Elt Ideal)) :
    (TRef.of (sig := sig) (T := ⟨S50000x256, .f32⟩) main_call0_v0).ofBuf ((TRef.of (sig := sig) (T := ⟨S50000x256, .f32⟩) main_call0_v0).toBuf v) = v := rfl
theorem ofto_c0cst (v : (⟨S_, .f32⟩ : BufTy).Contents (Elt Ideal)) :
    (TRef.of (sig := sig) (T := ⟨S_, .f32⟩) main_call0_cst).ofBuf ((TRef.of (sig := sig) (T := ⟨S_, .f32⟩) main_call0_cst).toBuf v) = v := rfl

set_option maxHeartbeats 1000000 in
/-- The first layer's output: aggregated, biased, rectified. -/
theorem w5_v46 : W5 m ρ c (Proc.devRef .tc main_v46) = val_main_v44 (F := Ideal) (a0 m c) (a1 m c) (a2 m c) (a3 m c) := by
  show StableHlo.after hostOps1_2 (StableHlo.after hostOps1_1 (W3 m ρ c)) (Proc.devRef .tc main_v46) = _
  generalize hW : W3 m ρ c = W
  simp only [hostOps1_2, hostOps1_1]
  after_results_simp
  subst hW
  rw [w3_v45]
  unfold val_main_v44 val_main_call0_v0 val_main_call0_cst
  generalize val_main_v43 (F := Ideal) (a0 m c) (a1 m c) (a2 m c) (a3 m c) = V
  refine (to_v46 _).trans ?_
  refine congr (congrArg (maximumf (F := Ideal) (s := S50000x256) (φ := .f32)) (of_v45 V)) ?_
  exact (ofto_c0v0 _).trans (congrArg (broadcastInDim S50000x256 ![] bcast_S_S50000x256) (ofto_c0cst _))

/-! ## The second region: the second dense layer, with an all-zero bias row -/

theorem w6_v5 : W6 m ρ c (Proc.devRef .tc main_v5) = val_main_v6 (F := Ideal) (a1 m c) :=
  (W6_of_ne m ρ c main_v5 (by decide)).trans ((w5_keep m ρ c main_v5 (by simp)).trans (w2_v5 m ρ c))
theorem w6_v6 : W6 m ρ c (Proc.devRef .tc main_v6) = val_main_v7 (F := Ideal) (a1 m c) :=
  (W6_of_ne m ρ c main_v6 (by decide)).trans ((w5_keep m ρ c main_v6 (by simp)).trans (w2_v6 m ρ c))
theorem w6_v26 : W6 m ρ c (Proc.devRef .tc main_v26) = val_main_v27 (F := Ideal) (a1 m c) :=
  (W6_of_ne m ρ c main_v26 (by decide)).trans ((w5_keep m ρ c main_v26 (by simp)).trans (w2_v26 m ρ c))
theorem w6_arg5 : W6 m ρ c (Proc.devRef .tc main_arg5) = a5 m c :=
  (W6_of_ne m ρ c main_arg5 (by decide)).trans ((w5_keep m ρ c main_arg5 (by simp)).trans (w2_arg5 m ρ c))
theorem w6_arg6 : W6 m ρ c (Proc.devRef .tc main_arg6) = a6 m c :=
  (W6_of_ne m ρ c main_arg6 (by decide)).trans ((w5_keep m ρ c main_arg6 (by simp)).trans (w2_arg6 m ρ c))
theorem w6_arg7 : W6 m ρ c (Proc.devRef .tc main_arg7) = a7 m c :=
  (W6_of_ne m ρ c main_arg7 (by decide)).trans ((w5_keep m ρ c main_arg7 (by simp)).trans (w2_arg7 m ρ c))
theorem w6_arg8 : W6 m ρ c (Proc.devRef .tc main_arg8) = a8 m c :=
  (W6_of_ne m ρ c main_arg8 (by decide)).trans ((w5_keep m ρ c main_arg8 (by simp)).trans (w2_arg8 m ρ c))
theorem w6_arg9 : W6 m ρ c (Proc.devRef .tc main_arg9) = a9 m c :=
  (W6_of_ne m ρ c main_arg9 (by decide)).trans ((w5_keep m ρ c main_arg9 (by simp)).trans (w2_arg9 m ρ c))

/-- The second region's output array is the host's product of the first layer's output and the second weight matrix. -/
theorem w6_v49 : W6 m ρ c (Proc.devRef .tc main_v49)
    = val_main_v45 (F := Ideal) (a0 m c) (a1 m c) (a2 m c) (a3 m c) (a4 m c) := by
  refine (W6_arr m ρ c 3).trans ((Region1.final (V5 m ρ) c).trans ?_)
  show dense (W5 m ρ c (Proc.devRef .tc main_v46)) (W5 m ρ c (Proc.devRef .tc main_arg4)) (W5 m ρ c (Proc.devRef .tc main_v48)) = _
  rw [w5_v46, (w5_keep m ρ c main_arg4 (by simp)).trans (w2_arg4 m ρ c), w5_v48]
  refine (dense_zero _ _ _ (fun j => zero_row _ _ _ j)).trans ?_
  rfl

/-! ## After the second region -/

set_option maxHeartbeats 4000000 in
/-- The second layer before the rectifier. -/
theorem w7_v65 : W7 m ρ c (Proc.devRef .tc main_v65)
    = val_main_v84 (F := Ideal) (a0 m c) (a1 m c) (a2 m c) (a3 m c) (a4 m c) (a5 m c) := by
  show StableHlo.after hostOps2 (W6 m ρ c) (Proc.devRef .tc main_v65) = _
  simp only [hostOps2]
  after_results_simp
  rw [w6_v49, w6_v5, w6_v6, w6_v26, w6_arg5]
  rfl

end Cert.KernelIdeal.Walk
-- ==== Proof.Region2.lean ====
/-
  Region 2: the fused heads' kernel, one dense layer with two output columns, run over its grid of 25 row blocks.

  Each grid point t takes rows 2000·t … 2000·t + 1999 of X, all of the 256 × 2 weight matrix and the one bias row of
  two entries, and writes back the 2000 × 2 block of X · W + bias at those rows. The 25 blocks tile the 50000 rows, so
  after the region the output array is the dense layer of the three arrays the region read.
-/
import proofs.«105308_j80796924772854_1_alg».proof.Proof.Gen.KernelIdeal.Frame
import proofs.«105308_j80796924772854_1_alg».proof.Proof.Dense
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Cert.Dense
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev X (c : Dev nD) : FVec Ideal ⟨2, ![50000, 256]⟩ .f32 := V c main_v66
abbrev Wt (c : Dev nD) : FVec Ideal ⟨2, ![256, 2]⟩ .f32 := V c main_v67
abbrev Bs (c : Dev nD) : FVec Ideal ⟨2, ![1, 2]⟩ .f32 := V c main_v69

theorem hz : (![0, 0] : Fin 2 → Nat) = fun _ => 0 := funext fun a => by fin_cases a <;> rfl

/-- The value the body stores, at entry (p, q) of its block: the three reshapes to the same shape change nothing, and
    what is left is the rounded block of X times the rounded W into a zero accumulator, plus the bias row laid along
    the block. -/
theorem pay_at (x0 : Vec Ideal S2000x256 .f32) (x1 : Vec Ideal S256x2 .f32) (x2 : Vec Ideal S1x2 .f32) (p : Fin 2000) (q : Fin 2) :
    k2_pay1 (F := Ideal) x0 x1 x2 (ix2 p q) = (∑ k : Fin 256, x0 (ix2 p k) * x1 (ix2 k q)) + x2 (ix2 (0 : Fin 1) q) := by
  unfold k2_pay1
  rw [shapeCast_self, shapeCast_self, shapeCast_self]
  exact Cert.Dense.body_at 2000 256 2 x0 x1 x2 _ _ _ p q

/-- The four index maps at each of the 25 grid points: X's and the output's blocks move down one block of rows a
    point, the weights' and the bias row's stay put. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point t writes back is block t of the dense layer. -/
theorem flushed_eq (c : Dev nD) (t : Fin cfg2.N) :
    (dat2 V c).flushed 3 t = ((cfg2.win 3).blk t).view.read (Elt Ideal) (dense (X V c) (Wt V c) (Bs V c)) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x2) hz, View.ld_unit_zero (S := S1x2) hz]
  funext j
  obtain ⟨p, q, rfl⟩ : ∃ (p : Fin 2000) (q : Fin 2), j = ix2 p q := ⟨j 0, j 1, eq_ix2 j⟩
  show k2_pay1 (iblk2 V c 0 t) (iblk2 V c 1 t) (iblk2 V c 2 t) (ix2 p q)
      = dense (X V c) (Wt V c) (Bs V c) (((cfg2.win 3).blk t).view.emb (ix2 p q))
  refine (pay_at (iblk2 V c 0 t) (iblk2 V c 1 t) (iblk2 V c 2 t) p q).trans ?_
  obtain ⟨e00, e01, e10, e11, e20, e21, e30, e31⟩ := idx_facts t
  have ht : t.val < 25 := t.isLt
  have hp : p.val < 2000 := p.isLt
  have hr : t.val * 2000 + p.val < 50000 := by omega
  -- entry (p, q) of point t's output block is entry (2000·t + p, q) of the output array
  have hemb3 : ((cfg2.win 3).blk t).view.emb (ix2 p q) = ix2 (⟨t.val * 2000 + p.val, hr⟩ : Fin 50000) q := by
    funext a; apply Fin.ext
    match a with
    | ⟨0, _⟩ => show win2_3.index t (0 : Fin 2) * 2000 + 1 * p.val = t.val * 2000 + p.val; omega
    | ⟨1, _⟩ => show win2_3.index t (1 : Fin 2) * 2 + 1 * q.val = q.val; omega
  rw [hemb3, dense_at]
  -- entry (p, k) of point t's block of X is entry (2000·t + p, k) of X
  have h0 : ∀ k : Fin 256, iblk2 V c 0 t (ix2 p k) = X V c (ix2 (⟨t.val * 2000 + p.val, hr⟩ : Fin 50000) k) := fun k => by
    show V c main_v66 (((cfg2.win 0).blk t).view.emb (ix2 p k)) = V c main_v66 (ix2 (⟨t.val * 2000 + p.val, hr⟩ : Fin 50000) k)
    refine congrArg (V c main_v66) ?_
    funext a; apply Fin.ext
    match a with
    | ⟨0, _⟩ => show win2_0.index t (0 : Fin 2) * 2000 + 1 * p.val = t.val * 2000 + p.val; omega
    | ⟨1, _⟩ => show win2_0.index t (1 : Fin 2) * 256 + 1 * k.val = k.val; omega
  -- the weights' block is the whole weight matrix
  have h1 : ∀ k : Fin 256, iblk2 V c 1 t (ix2 k q) = Wt V c (ix2 k q) := fun k => by
    show V c main_v67 (((cfg2.win 1).blk t).view.emb (ix2 k q)) = V c main_v67 (ix2 k q)
    refine congrArg (V c main_v67) ?_
    funext a; apply Fin.ext
    match a with
    | ⟨0, _⟩ => show win2_1.index t (0 : Fin 2) * 256 + 1 * k.val = k.val; omega
    | ⟨1, _⟩ => show win2_1.index t (1 : Fin 2) * 2 + 1 * q.val = q.val; omega
  -- the bias row's block is the whole bias row
  have h2 : iblk2 V c 2 t (ix2 (0 : Fin 1) q) = Bs V c (ix2 (0 : Fin 1) q) := by
    show V c main_v69 (((cfg2.win 2).blk t).view.emb (ix2 (0 : Fin 1) q)) = V c main_v69 (ix2 (0 : Fin 1) q)
    refine congrArg (V c main_v69) ?_
    funext a; apply Fin.ext
    match a with
    | ⟨0, _⟩ => show win2_2.index t (0 : Fin 2) * 1 + 1 * 0 = 0; omega
    | ⟨1, _⟩ => show win2_2.index t (1 : Fin 2) * 2 + 1 * q.val = q.val; omega
  rw [h2]
  refine congrArg (· + Bs V c (ix2 (0 : Fin 1) q)) (Finset.sum_congr rfl fun k _ => ?_)
  rw [h0 k, h1 k]

/-- An index of the array is in point t's block iff each coordinate is in the block's range on its axis. -/
theorem mem_blk (t : Fin cfg2.N) (i : S50000x2.Idx) :
    i ∈ ((cfg2.win 3).blk t).view.set ↔ ∀ a : Fin 2, win2_3.index t a * S2000x2.size a ≤ (i a).val ∧ (i a).val < win2_3.index t a * S2000x2.size a + S2000x2.size a := by
  show i ∈ ((View.whole main_v70).slice (win2_3.rect t)).set ↔ _
  rw [View.set_slice_whole, Rect.mem_set_unit]
  exact Iff.rfl

/-- Every row of the array lies in the block of the grid point "row / 2000", and every point writes its block back. -/
theorem cover (i : S50000x2.Idx) : ∃ t : Fin cfg2.N, (cfg2.win 3).flush t = true ∧ i ∈ ((cfg2.win 3).blk t).view.set := by
  have hi0 : (i 0).val < 50000 := (i 0).isLt
  have hi1 : (i 1).val < 2 := (i 1).isLt
  let t : Fin cfg2.N := ⟨(i 0).val / 2000, by show (i 0).val / 2000 < 25; omega⟩
  obtain ⟨e00, e01, e10, e11, e20, e21, e30, e31⟩ := idx_facts t
  have tv : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 2 ≤ (i 1).val ∧ (i 1).val < win2_3.index t (1 : Fin 2) * 2 + 2; omega

/-- Region 2's output array after the region: the dense layer of the three arrays it reads, as the region found them. -/
theorem final (c : Dev nD) : (dat2 V c).arrAt 3 cfg2.N = dense (X V c) (Wt V c) (Bs V c) :=
  (dat2 V c).arrAt_eq_of_cover 3 (dense (X V c) (Wt V c) (Bs V c)) (fun t _ => flushed_eq V c t) cover

end Cert.KernelIdeal.Region2
-- ==== Proof.Head.lean ====
/-
  The two heads read out of one fused dense layer.

  The actor head and the critic head are each a dense layer with one output column: h · a6 + a7 and h · a8 + a9. Fused,
  they are ONE dense layer with two output columns: the weight matrix is a6 and a8 side by side, the bias row is a7's
  entry followed by a9's. Column 0 of the fused layer's result is then the actor head and column 1 the critic head:
  entry (r, 0) is the sum over k of h (r, k) · a6 (k, 0), plus a7's entry, and entry (r, 1) the same with a8 and a9.
-/
import proofs.«105308_j80796924772854_1_alg».proof.Proof.Dense

noncomputable section

open scoped BigOperators

namespace Cert.Head

open Idealize.ShloMosaic Idealize.ShloMosaic.ValueIdx Cert.Dense

variable {M K : Nat}

/-! ## The fused weight matrix, read in each of its two columns -/

/-- The two weight columns side by side, read in column 0: the first weight column. -/
theorem weights_col0 (a6 a8 : FVec Ideal ⟨2, ![K, 1]⟩ .f32)
    (hc1 : Shape.Concatenates [(⟨2, ![K, 1]⟩ : Shape), ⟨2, ![K, 1]⟩] ⟨2, ![K, 2]⟩ 1) (k : Fin K) :
    concatenate ⟨2, ![K, 2]⟩ 1 [⟨⟨2, ![K, 1]⟩, a6⟩, ⟨⟨2, ![K, 1]⟩, a8⟩] hc1 (ix2 k (0 : Fin 2))
      = a6 (ix2 k (0 : Fin 1)) := by
  refine concatenate_pair_apply_left (t := ⟨2, ![K, 2]⟩) 1 a6 a8 hc1 (ix2 k (0 : Fin 2)) rfl (ix2 k (0 : Fin 1)) ?_
  intro b
  match b with
  | ⟨0, _⟩ => rfl
  | ⟨1, _⟩ => rfl

/-- The two weight columns side by side, read in column 1: the second weight column (column 1, less the first
    piece's one column, is column 0 of the second piece). -/
theorem weights_col1 (a6 a8 : FVec Ideal ⟨2, ![K, 1]⟩ .f32)
    (hc1 : Shape.Concatenates [(⟨2, ![K, 1]⟩ : Shape), ⟨2, ![K, 1]⟩] ⟨2, ![K, 2]⟩ 1) (k : Fin K) :
    concatenate ⟨2, ![K, 2]⟩ 1 [⟨⟨2, ![K, 1]⟩, a6⟩, ⟨⟨2, ![K, 1]⟩, a8⟩] hc1 (ix2 k (1 : Fin 2))
      = a8 (ix2 k (0 : Fin 1)) := by
  refine concatenate_pair_apply_right (t := ⟨2, ![K, 2]⟩) 1 a6 a8 hc1 (ix2 k (1 : Fin 2)) rfl rfl (ix2 k (0 : Fin 1)) ?_ ?_
  · intro b hb
    match b, hb with
    | ⟨0, _⟩, _ => rfl
    | ⟨1, _⟩, hb => exact absurd rfl hb
  · rfl

/-! ## The fused bias row, read at each of its two entries -/

/-- The bias row is the two bias entries one after the other, laid out as one row of two; its entry (0, 0) is the
    first bias entry: position 0 of the row is position 0 of the two-entry vector, which falls in the first piece. -/
theorem bias_col0 (a7 a9 : FVec Ideal ⟨1, ![1]⟩ .f32)
    (hc0 : Shape.Concatenates [(⟨1, ![1]⟩ : Shape), ⟨1, ![1]⟩] ⟨1, ![2]⟩ 0)
    (hsc : (⟨1, ![2]⟩ : Shape).ShapeCasts ⟨2, ![1, 2]⟩) :
    shapeCast ⟨2, ![1, 2]⟩ (concatenate ⟨1, ![2]⟩ 0 [⟨⟨1, ![1]⟩, a7⟩, ⟨⟨1, ![1]⟩, a9⟩] hc0) hsc (ix2 (0 : Fin 1) (0 : Fin 2))
      = a7 (ix1 (0 : Fin 1)) := by
  refine (shapeCast_apply _ hsc (ix2 (0 : Fin 1) (0 : Fin 2)) (ix1 (0 : Fin 2)) ?_).trans ?_
  · rw [Shape.rowMajor_val_two, Shape.rowMajor_val_one]; rfl
  · refine concatenate_pair_apply_left (t := ⟨1, ![2]⟩) 0 a7 a9 hc0 (ix1 (0 : Fin 2)) rfl (ix1 (0 : Fin 1)) ?_
    intro b
    match b with
    | ⟨0, _⟩ => rfl

/-- Entry (0, 1) of the bias row is the second bias entry: position 1 of the row is position 1 of the two-entry
    vector, which, less the first piece's one entry, is position 0 of the second piece. -/
theorem bias_col1 (a7 a9 : FVec Ideal ⟨1, ![1]⟩ .f32)
    (hc0 : Shape.Concatenates [(⟨1, ![1]⟩ : Shape), ⟨1, ![1]⟩] ⟨1, ![2]⟩ 0)
    (hsc : (⟨1, ![2]⟩ : Shape).ShapeCasts ⟨2, ![1, 2]⟩) :
    shapeCast ⟨2, ![1, 2]⟩ (concatenate ⟨1, ![2]⟩ 0 [⟨⟨1, ![1]⟩, a7⟩, ⟨⟨1, ![1]⟩, a9⟩] hc0) hsc (ix2 (0 : Fin 1) (1 : Fin 2))
      = a9 (ix1 (0 : Fin 1)) := by
  refine (shapeCast_apply _ hsc (ix2 (0 : Fin 1) (1 : Fin 2)) (ix1 (1 : Fin 2)) ?_).trans ?_
  · rw [Shape.rowMajor_val_two, Shape.rowMajor_val_one]; rfl
  · refine concatenate_pair_apply_right (t := ⟨1, ![2]⟩) 0 a7 a9 hc0 (ix1 (1 : Fin 2)) rfl rfl (ix1 (0 : Fin 1)) ?_ ?_
    · intro b hb
      match b, hb with
      | ⟨0, _⟩, hb => exact absurd rfl hb
    · rfl

/-! ## One bias entry laid along the rows -/

/-- A one-entry vector made a 1 × 1 array and then laid along M rows, read at (r, 0), is the vector's entry. -/
theorem bias_along_at (a : FVec Ideal ⟨1, ![1]⟩ .f32)
    (hb1 : (⟨1, ![1]⟩ : Shape).BroadcastsInDim ⟨2, ![1, 1]⟩ ![1])
    (hb2 : (⟨2, ![1, 1]⟩ : Shape).BroadcastsInDim ⟨2, ![M, 1]⟩ ![0, 1]) (r : Fin M) :
    broadcastInDim ⟨2, ![M, 1]⟩ ![0, 1] hb2 (broadcastInDim ⟨2, ![1, 1]⟩ ![1] hb1 a) (ix2 r (0 : Fin 1))
      = a (ix1 (0 : Fin 1)) := by
  refine (broadcastInDim_apply ![0, 1] hb2 _ (ix2 r (0 : Fin 1)) (ix2 (0 : Fin 1) (0 : Fin 1)) ?_).trans ?_
  · intro b
    match b with
    | ⟨0, _⟩ => rfl
    | ⟨1, _⟩ => rfl
  · refine broadcastInDim_apply ![1] hb1 a (ix2 (0 : Fin 1) (0 : Fin 1)) (ix1 (0 : Fin 1)) ?_
    intro b
    match b with
    | ⟨0, _⟩ => rfl

/-! ## The two heads -/

/-- Column 0 of the fused layer is the first head: the host's product of h with the first weight column, plus the
    first bias entry laid along the rows. -/
theorem col0 (h : FVec Ideal ⟨2, ![M, K]⟩ .f32) (a6 a8 : FVec Ideal ⟨2, ![K, 1]⟩ .f32) (a7 a9 : FVec Ideal ⟨1, ![1]⟩ .f32)
    (hc1 : Shape.Concatenates [(⟨2, ![K, 1]⟩ : Shape), ⟨2, ![K, 1]⟩] ⟨2, ![K, 2]⟩ 1)
    (hc0 : Shape.Concatenates [(⟨1, ![1]⟩ : Shape), ⟨1, ![1]⟩] ⟨1, ![2]⟩ 0)
    (hsc : (⟨1, ![2]⟩ : Shape).ShapeCasts ⟨2, ![1, 2]⟩)
    (hs : (⟨2, ![M, 2]⟩ : Shape).Slices ![0, 0] ⟨2, ![M, 1]⟩)
    (hb1 : (⟨1, ![1]⟩ : Shape).BroadcastsInDim ⟨2, ![1, 1]⟩ ![1])
    (hb2 : (⟨2, ![1, 1]⟩ : Shape).BroadcastsInDim ⟨2, ![M, 1]⟩ ![0, 1]) :
    extractStridedSlice ⟨2, ![M, 1]⟩ ![0, 0]
        (dense h (concatenate ⟨2, ![K, 2]⟩ 1 [⟨⟨2, ![K, 1]⟩, a6⟩, ⟨⟨2, ![K, 1]⟩, a8⟩] hc1)
          (shapeCast ⟨2, ![1, 2]⟩ (concatenate ⟨1, ![2]⟩ 0 [⟨⟨1, ![1]⟩, a7⟩, ⟨⟨1, ![1]⟩, a9⟩] hc0) hsc)) hs
      = addf (Host.dotGeneral (DotDims.plain M K 1) none h a6)
          (broadcastInDim ⟨2, ![M, 1]⟩ ![0, 1] hb2 (broadcastInDim ⟨2, ![1, 1]⟩ ![1] hb1 a7)) := by
  funext i
  obtain ⟨r, z, rfl⟩ : ∃ (r : Fin M) (z : Fin 1), i = ix2 r z := ⟨i 0, i 1, eq_ix2 i⟩
  obtain rfl : z = 0 := Subsingleton.elim _ _
  -- the slice at (r, 0) is the fused layer at (r, 0)
  rw [extractStridedSlice_apply ![0, 0] _ hs (ix2 r (0 : Fin 1)) (ix2 r (0 : Fin 2)) (by
    intro a
    match a with
    | ⟨0, _⟩ => show r.val = 0 + r.val; omega
    | ⟨1, _⟩ => rfl)]
  rw [dense_at, bias_col0, addf_apply, bias_along_at]
  simp only [Host.dotGeneral]
  rw [Cert.LibDotPlain.dotGeneral_plain M K 1 none _ h a6 r 0]
  refine congrArg (· + a7 (ix1 (0 : Fin 1))) ?_
  exact Finset.sum_congr rfl fun k _ => by rw [weights_col0]

/-- Column 1 of the fused layer is the second head: the host's product of h with the second weight column, plus the
    second bias entry laid along the rows. -/
theorem col1 (h : FVec Ideal ⟨2, ![M, K]⟩ .f32) (a6 a8 : FVec Ideal ⟨2, ![K, 1]⟩ .f32) (a7 a9 : FVec Ideal ⟨1, ![1]⟩ .f32)
    (hc1 : Shape.Concatenates [(⟨2, ![K, 1]⟩ : Shape), ⟨2, ![K, 1]⟩] ⟨2, ![K, 2]⟩ 1)
    (hc0 : Shape.Concatenates [(⟨1, ![1]⟩ : Shape), ⟨1, ![1]⟩] ⟨1, ![2]⟩ 0)
    (hsc : (⟨1, ![2]⟩ : Shape).ShapeCasts ⟨2, ![1, 2]⟩)
    (hs : (⟨2, ![M, 2]⟩ : Shape).Slices ![0, 1] ⟨2, ![M, 1]⟩)
    (hb1 : (⟨1, ![1]⟩ : Shape).BroadcastsInDim ⟨2, ![1, 1]⟩ ![1])
    (hb2 : (⟨2, ![1, 1]⟩ : Shape).BroadcastsInDim ⟨2, ![M, 1]⟩ ![0, 1]) :
    extractStridedSlice ⟨2, ![M, 1]⟩ ![0, 1]
        (dense h (concatenate ⟨2, ![K, 2]⟩ 1 [⟨⟨2, ![K, 1]⟩, a6⟩, ⟨⟨2, ![K, 1]⟩, a8⟩] hc1)
          (shapeCast ⟨2, ![1, 2]⟩ (concatenate ⟨1, ![2]⟩ 0 [⟨⟨1, ![1]⟩, a7⟩, ⟨⟨1, ![1]⟩, a9⟩] hc0) hsc)) hs
      = addf (Host.dotGeneral (DotDims.plain M K 1) none h a8)
          (broadcastInDim ⟨2, ![M, 1]⟩ ![0, 1] hb2 (broadcastInDim ⟨2, ![1, 1]⟩ ![1] hb1 a9)) := by
  funext i
  obtain ⟨r, z, rfl⟩ : ∃ (r : Fin M) (z : Fin 1), i = ix2 r z := ⟨i 0, i 1, eq_ix2 i⟩
  obtain rfl : z = 0 := Subsingleton.elim _ _
  -- the slice at (r, 0) is the fused layer at (r, 1)
  rw [extractStridedSlice_apply ![0, 1] _ hs (ix2 r (0 : Fin 1)) (ix2 r (1 : Fin 2)) (by
    intro a
    match a with
    | ⟨0, _⟩ => show r.val = 0 + r.val; omega
    | ⟨1, _⟩ => rfl)]
  rw [dense_at, bias_col1, addf_apply, bias_along_at]
  simp only [Host.dotGeneral]
  rw [Cert.LibDotPlain.dotGeneral_plain M K 1 none _ h a8 r 0]
  refine congrArg (· + a9 (ix1 (0 : Fin 1))) ?_
  exact Finset.sum_congr rfl fun k _ => by rw [weights_col1]

end Cert.Head
-- ==== Proof.Walk3.lean ====
/-
  The idealized kernel's buffers from the second rectifier to the two results.
-/
import proofs.«105308_j80796924772854_1_alg».proof.Proof.Walk2
import proofs.«105308_j80796924772854_1_alg».proof.Proof.Region2
import proofs.«105308_j80796924772854_1_alg».proof.Proof.Head

set_option maxRecDepth 16384

noncomputable section

namespace Cert.KernelIdeal.Walk

open Cert.KernelIdeal Cert.KernelIdeal.Gen Cert.ReferenceIdeal.Read Cert.Dense
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Contents carried to and from a buffer of the second rectifier's own: the identity -/

theorem of_v65 (v : (⟨S50000x256, .f32⟩ : BufTy).Contents (Elt Ideal)) :
    (TRef.of (sig := sig) (T := ⟨S50000x256, .f32⟩) main_v65).ofBuf v = v := rfl
theorem to_v66 (v : (⟨S50000x256, .f32⟩ : BufTy).Contents (Elt Ideal)) :
    (TRef.of (sig := sig) (T := ⟨S50000x256, .f32⟩) main_v66).toBuf v = v := rfl
theorem ofto_c1v0 (v : (⟨S50000x256, .f32⟩ : BufTy).Contents (Elt Ideal)) :
    (TRef.of (sig := sig) (T := ⟨S50000x256, .f32⟩) main_call1_v0).ofBuf ((TRef.of (sig := sig) (T := ⟨S50000x256, .f32⟩) main_call1_v0).toBuf v) = v := rfl
theorem ofto_c1cst (v : (⟨S_, .f32⟩ : BufTy).Contents (Elt Ideal)) :
    (TRef.of (sig := sig) (T := ⟨S_, .f32⟩) main_call1_cst).ofBuf ((TRef.of (sig := sig) (T := ⟨S_, .f32⟩) main_call1_cst).toBuf v) = v := rfl

/-! ## Between the second and the third region -/

set_option maxHeartbeats 1000000 in
/-- The second layer's output: aggregated, biased, rectified. -/
theorem w9_v66 : W9 m ρ c (Proc.devRef .tc main_v66)
    = val_main_v85 (F := Ideal) (a0 m c) (a1 m c) (a2 m c) (a3 m c) (a4 m c) (a5 m c) := by
  show StableHlo.after hostOps2_2 (StableHlo.after hostOps2_1 (W7 m ρ c)) (Proc.devRef .tc main_v66) = _
  generalize hW : W7 m ρ c = W
  simp only [hostOps2_2, hostOps2_1]
  after_results_simp
  subst hW
  rw [w7_v65]
  unfold val_main_v85 val_main_call1_v0 val_main_call1_cst
  generalize val_main_v84 (F := Ideal) (a0 m c) (a1 m c) (a2 m c) (a3 m c) (a4 m c) (a5 m c) = V
  refine (to_v66 _).trans ?_
  refine congr (congrArg (maximumf (F := Ideal) (s := S50000x256) (φ := .f32)) (of_v65 V)) ?_
  exact (ofto_c1v0 _).trans (congrArg (broadcastInDim S50000x256 ![] bcast_S_S50000x256) (ofto_c1cst _))

set_option maxHeartbeats 4000000 in
/-- The two stretches after the second region write none of the heads' weights and biases. -/
theorem w8_keep (b : Ref sig .tc) (hb : b = main_arg6 ∨ b = main_arg7 ∨ b = main_arg8 ∨ b = main_arg9) :
    W8 m ρ c (Proc.devRef .tc b) = W6 m ρ c (Proc.devRef .tc b) := by
  show StableHlo.after hostOps2_1 (StableHlo.after hostOps2 (W6 m ρ c)) (Proc.devRef .tc b) = _
  rcases hb with h | h | h | h <;> subst h <;> (simp only [hostOps2_1, hostOps2]; after_results_simp <;> rfl)

theorem w8_arg6 : W8 m ρ c (Proc.devRef .tc main_arg6) = a6 m c := (w8_keep m ρ c main_arg6 (by simp)).trans (w6_arg6 m ρ c)
theorem w8_arg7 : W8 m ρ c (Proc.devRef .tc main_arg7) = a7 m c := (w8_keep m ρ c main_arg7 (by simp)).trans (w6_arg7 m ρ c)
theorem w8_arg8 : W8 m ρ c (Proc.devRef .tc main_arg8) = a8 m c := (w8_keep m ρ c main_arg8 (by simp)).trans (w6_arg8 m ρ c)
theorem w8_arg9 : W8 m ρ c (Proc.devRef .tc main_arg9) = a9 m c := (w8_keep m ρ c main_arg9 (by simp)).trans (w6_arg9 m ρ c)

set_option maxHeartbeats 4000000 in
/-- The fused heads' weight matrix: the two heads' weight columns side by side. -/
theorem w9_v67 : W9 m ρ c (Proc.devRef .tc main_v67)
    = concatenate S256x2 1 [⟨S256x1, a6 m c⟩, ⟨S256x1, a8 m c⟩] concatenates_S256x1_S256x1_S256x2_d1 := by
  show StableHlo.after hostOps2_2 (W8 m ρ c) (Proc.devRef .tc main_v67) = _
  generalize hW : W8 m ρ c = W
  simp only [hostOps2_2]
  after_results
  subst hW
  rw [w8_arg6, w8_arg8]

set_option maxHeartbeats 4000000 in
/-- The fused heads' bias row: the two heads' bias entries one after the other. -/
theorem w9_v69 : W9 m ρ c (Proc.devRef .tc main_v69)
    = shapeCast S1x2 (concatenate S2 0 [⟨S1, a7 m c⟩, ⟨S1, a9 m c⟩] concatenates_S1_S1_S2_d0) shapeCasts_S2_S1x2 := by
  show StableHlo.after hostOps2_2 (W8 m ρ c) (Proc.devRef .tc main_v69) = _
  generalize hW : W8 m ρ c = W
  simp only [hostOps2_2]
  after_results
  subst hW
  rw [w8_arg7, w8_arg9]
  rfl

/-! ## The third region: both heads as one dense layer of two output columns -/

theorem w10_v70 : W10 m ρ c (Proc.devRef .tc main_v70)
    = dense (val_main_v85 (F := Ideal) (a0 m c) (a1 m c) (a2 m c) (a3 m c) (a4 m c) (a5 m c))
        (concatenate S256x2 1 [⟨S256x1, a6 m c⟩, ⟨S256x1, a8 m c⟩] concatenates_S256x1_S256x1_S256x2_d1)
        (shapeCast S1x2 (concatenate S2 0 [⟨S1, a7 m c⟩, ⟨S1, a9 m c⟩] concatenates_S1_S1_S2_d0) shapeCasts_S2_S1x2) := by
  refine (W10_arr m ρ c 3).trans ((Region2.final (V9 m ρ) c).trans ?_)
  show dense (W9 m ρ c (Proc.devRef .tc main_v66)) (W9 m ρ c (Proc.devRef .tc main_v67)) (W9 m ρ c (Proc.devRef .tc main_v69)) = _
  rw [w9_v66, w9_v67, w9_v69]

/-! ## The two results -/

/-- The reference's dimension record for a one-column product is the plain one. -/
theorem plain_col : DotDims.plain 50000 256 1 = Cert.ReferenceIdeal.dot_S50000x256_S256x1_S50000x1_1_0_0_1_n_n := rfl

set_option maxHeartbeats 1000000 in
/-- The first result: column 0 of the fused layer, as a vector. -/
theorem out0 : W11 m ρ c (Proc.devRef .tc main_v72)
    = val_main_v90 (F := Ideal) (a0 m c) (a1 m c) (a2 m c) (a3 m c) (a4 m c) (a5 m c) (a6 m c) (a7 m c) := by
  show StableHlo.after hostOps3 (W10 m ρ c) (Proc.devRef .tc main_v72) = _
  simp only [hostOps3]
  after_results_simp
  rw [w10_v70]
  unfold val_main_v90 val_main_v89 val_main_v88 val_main_v87 val_main_v86
  generalize val_main_v85 (F := Ideal) (a0 m c) (a1 m c) (a2 m c) (a3 m c) (a4 m c) (a5 m c) = H
  rw [Cert.Head.col0 (M := 50000) (K := 256) H (a6 m c) (a8 m c) (a7 m c) (a9 m c) concatenates_S256x1_S256x1_S256x2_d1
    concatenates_S1_S1_S2_d0 shapeCasts_S2_S1x2 slices_S50000x2_S50000x1_0_0
    Cert.ReferenceIdeal.Gen.bcast_S1_S1x1_1 Cert.ReferenceIdeal.Gen.bcast_S1x1_S50000x1_0_1]
  rw [plain_col]
  rfl

set_option maxHeartbeats 1000000 in
/-- The second result: column 1 of the fused layer. -/
theorem out1 : W11 m ρ c (Proc.devRef .tc main_v73)
    = val_main_v94 (F := Ideal) (a0 m c) (a1 m c) (a2 m c) (a3 m c) (a4 m c) (a5 m c) (a8 m c) (a9 m c) := by
  show StableHlo.after hostOps3 (W10 m ρ c) (Proc.devRef .tc main_v73) = _
  simp only [hostOps3]
  after_results_simp
  rw [w10_v70]
  unfold val_main_v94 val_main_v93 val_main_v92 val_main_v91
  generalize val_main_v85 (F := Ideal) (a0 m c) (a1 m c) (a2 m c) (a3 m c) (a4 m c) (a5 m c) = H
  rw [Cert.Head.col1 (M := 50000) (K := 256) H (a6 m c) (a8 m c) (a7 m c) (a9 m c) concatenates_S256x1_S256x1_S256x2_d1
    concatenates_S1_S1_S2_d0 shapeCasts_S2_S1x2 slices_S50000x2_S50000x1_0_1
    Cert.ReferenceIdeal.Gen.bcast_S1_S1x1_1 Cert.ReferenceIdeal.Gen.bcast_S1x1_S50000x1_0_1]
  rw [plain_col]

end Cert.KernelIdeal.Walk
-- ==== Proof.lean ====
/-
  The certificate of a two-layer graph convolution with an actor head and a critic head, whose three dense layers are
  kernels, against the same network written with host matrix products.

  Both programs build the same graph quantities from the edge list: sources and targets with a self loop appended for
  every node, the degree of every node as a scatter-add of ones, its inverse square root, and for every edge the
  product of the two ends' inverse square roots. Both then compute, twice, "dense layer, gather the rows at the edges'
  sources, scale by the edge's normalisation, scatter-add at the targets, add the bias, rectify", and finish with two
  one-column dense layers. They differ in the dense layers only. The kernel program computes each as a kernel over
  blocks of 2000 rows: the block times the whole weight matrix (both rounded to a narrower format, which is the
  identity over the extended reals) accumulated into zeros, plus a bias row. In the two hidden layers that row is all
  zeros, and x + 0 = x for every extended real, so the block is the corresponding rows of the plain product. In the
  last layer the two heads are fused: the weight columns side by side, the bias entries one after the other, and the
  two results are the fused result's two columns. Entry by entry the sums of products are the same sums, so the two
  programs' results are equal as extended reals, with no appeal to finiteness.

  The frames of the two kernel programs are the generated ones; the reference's frame is its generated run with the
  results dropped. The idealization rewrote nothing.
-/
import proofs.«105308_j80796924772854_1_alg».proof.Defs
import proofs.«105308_j80796924772854_1_alg».proof.Proof.Gen.Kernel
import proofs.«105308_j80796924772854_1_alg».proof.Proof.Gen.Kernel.Frame
import proofs.«105308_j80796924772854_1_alg».proof.Proof.Gen.KernelIdeal
import proofs.«105308_j80796924772854_1_alg».proof.Proof.Gen.KernelIdeal.Frame
import proofs.«105308_j80796924772854_1_alg».proof.Proof.Gen.ReferenceIdeal
import proofs.«105308_j80796924772854_1_alg».proof.Proof.Gen.ReferenceIdeal.Run
import proofs.«105308_j80796924772854_1_alg».proof.Proof.Gen.ReferenceIdeal.Read
import proofs.«105308_j80796924772854_1_alg».proof.Proof.Gen.Pre_finite_inputs
import proofs.«105308_j80796924772854_1_alg».proof.Proof.KernelRun
import proofs.«105308_j80796924772854_1_alg».proof.Proof.Walk3
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run names its two results; dropping them leaves the frame. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with their two results at the reference's stage functions of the (agreeing) argument arrays. -/
theorem algebraic : Cert.algebraic_KernelIdeal_ReferenceIdeal := by
  intro m ρ m' ρ' _ hagree
  refine ⟨fun c => Cert.ReferenceIdeal.Read.val_main_v90 (F := Ideal)
      (Cert.KernelIdeal.Walk.a0 m c) (Cert.KernelIdeal.Walk.a1 m c) (Cert.KernelIdeal.Walk.a2 m c) (Cert.KernelIdeal.Walk.a3 m c)
      (Cert.KernelIdeal.Walk.a4 m c) (Cert.KernelIdeal.Walk.a5 m c) (Cert.KernelIdeal.Walk.a6 m c) (Cert.KernelIdeal.Walk.a7 m c),
    fun c => Cert.ReferenceIdeal.Read.val_main_v94 (F := Ideal)
      (Cert.KernelIdeal.Walk.a0 m c) (Cert.KernelIdeal.Walk.a1 m c) (Cert.KernelIdeal.Walk.a2 m c) (Cert.KernelIdeal.Walk.a3 m c)
      (Cert.KernelIdeal.Walk.a4 m c) (Cert.KernelIdeal.Walk.a5 m c) (Cert.KernelIdeal.Walk.a8 m c) (Cert.KernelIdeal.Walk.a9 m c),
    ?_, ?_⟩
  · exact (θ_run Cert.KernelIdeal.defs _ _).mono
      (fun _ h c => ⟨(h c).1.trans (Cert.KernelIdeal.Walk.out0 m ρ c), (h c).2.1.trans (Cert.KernelIdeal.Walk.out1 m ρ c), (h c).2.2⟩)
      (Cert.KernelIdeal.Run.run_named (F := Ideal) m ρ)
  · refine (θ_run Cert.ReferenceIdeal.defs _ _).mono (fun _ h c => ?_) (Cert.ReferenceIdeal.Value.run (F := Ideal) m' ρ')
    obtain ⟨h0, h1, h2, h3, h4, h5, h6, h7, h8, h9⟩ := hagree c
    refine ⟨(h c).1.trans ?_, (h c).2.1.trans ?_, (h c).2.2⟩
    · rw [Cert.ReferenceIdeal.Read.val_main_v90_eq, h0, h1, h2, h3, h4, h5, h6, h7]
    · rw [Cert.ReferenceIdeal.Read.val_main_v94_eq, h0, h1, h2, h3, h4, h5, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
